-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x512 .f32) (main_arg1 : FVec F S1024x512 .f32) (main_arg2 : FVec F S1024 .f32) (main_arg3 : FVec F S1x1024 .f32) (main_arg4 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S16384x512 : Shape := ⟨2, ![16384, 512]⟩
abbrev S1024x512 : Shape := ⟨2, ![1024, 512]⟩
abbrev S1024 : Shape := ⟨1, ![1024]⟩
abbrev S1x1024 : Shape := ⟨2, ![1, 1024]⟩
abbrev S1 : Shape := ⟨1, ![1]⟩
abbrev S_ : Shape := ⟨0, ![]⟩
abbrev S1x1 : Shape := ⟨2, ![1, 1]⟩
abbrev S16384x1 : Shape := ⟨2, ![16384, 1]⟩
abbrev S512x512 : Shape := ⟨2, ![512, 512]⟩
abbrev S512x1 : Shape := ⟨2, ![512, 1]⟩
abbrev S512x1024 : Shape := ⟨2, ![512, 1024]⟩
abbrev S512 : Shape := ⟨1, ![512]⟩

abbrev nBuf : Space → Nat
  | .hbm => 22
  | .vmem => 9
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S1024, .f32⟩
  | .hbm, ⟨3, _⟩ => ⟨S1x1024, .f32⟩
  | .hbm, ⟨4, _⟩ => ⟨S1, .f32⟩
  | .hbm, ⟨5, _⟩ => ⟨S1024x512, .f32⟩
  | .hbm, ⟨6, _⟩ => ⟨S_, .f32⟩
  | .hbm, ⟨7, _⟩ => ⟨S1024, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S1x1024, .f32⟩
  | .hbm, ⟨20, _⟩ => ⟨S1x1, .f32⟩
  | .hbm, ⟨21, _⟩ => ⟨S16384x1, .f32⟩
  | .local _ .vmem, ⟨0, _⟩ => ⟨S512x512, .f32⟩
  | .local _ .vmem, ⟨1, _⟩ => ⟨S512x512, .f32⟩
  | .local _ .vmem, ⟨2, _⟩ => ⟨S1024x512, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1, .f32⟩
  | .local _ .vmem, ⟨7, _⟩ => ⟨S512x1, .f32⟩
  | .local _ .vmem, ⟨8, _⟩ => ⟨S512x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S1024x512_S1024_d1 : S1024x512.ReducesTo [1] S1024
  h_S_ : 0 < S_.numel
  shapeCasts_S1024_S1x1024 : S1024.ShapeCasts S1x1024
  bcast_S_S1024 : S_.BroadcastsInDim S1024 (![] : Fin 0 → Fin S1024.rank)
  shapeCasts_S1_S1x1 : S1.ShapeCasts S1x1
  inb_S512x512_S512x512_0_0 : ∀ a, (![0, 0] : Fin 2 → Nat) a + S512x512.size a ≤ S512x512.size a
  h_S512x512 : 0 < S512x512.numel
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  reduces_S512x512_S512 : S512x512.Reduces [1] S512
  shapeCasts_S512_S512x1 : S512.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S16384x1.size a
  hwx0_6 : ∀ i : grid0.Coords, EltTy.bits .f32 = 32 ∨ (Rect.block (s := S16384x1) S512x1.size (cc0_transform_6 i) (hinb0_6 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S1024 : Shape := ⟨1, ![1024]⟩
abbrev S1x1024 : Shape := ⟨2, ![1, 1024]⟩
abbrev S1 : Shape := ⟨1, ![1]⟩
abbrev S_ : Shape := ⟨0, ![]⟩
abbrev S16384 : Shape := ⟨1, ![16384]⟩
abbrev S16384x1 : Shape := ⟨2, ![16384, 1]⟩
abbrev S16384x1024 : Shape := ⟨2, ![16384, 1024]⟩
abbrev S1024x1 : Shape := ⟨2, ![1024, 1]⟩
abbrev S1x1 : Shape := ⟨2, ![1, 1]⟩

abbrev nBuf : Space → Nat
  | .hbm => 45
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S1024x512, .f32⟩
  | .hbm, ⟨2, _⟩ => ⟨S1024, .f32⟩
  | .hbm, ⟨3, _⟩ => ⟨S1x1024, .f32⟩
  | .hbm, ⟨4, _⟩ => ⟨S1, .f32⟩
  | .hbm, ⟨5, _⟩ => ⟨S16384x512, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S1024x512, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1024x1, .f32⟩
  | .hbm, ⟨37, _⟩ => ⟨S16384x1, .f32⟩
  | .hbm, ⟨38, _⟩ => ⟨S1x1, .f32⟩
  | .hbm, ⟨39, _⟩ => ⟨S16384x1, .f32⟩
  | .hbm, ⟨40, _⟩ => ⟨S16384x1, .f32⟩
  | .hbm, ⟨41, _⟩ => ⟨S16384x1, .i1⟩
  | .hbm, ⟨42, _⟩ => ⟨S_, .f32⟩
  | .hbm, ⟨43, _⟩ => ⟨S16384x1, .f32⟩
  | .hbm, ⟨44, _⟩ => ⟨S16384x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S1024x512_S1024_d1 : S1024x512.ReducesTo [1] S1024
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S_S1024 : S_.BroadcastsInDim S1024 (![] : Fin 0 → Fin S1024.rank)
  transposes_S1x1024_S1024x1_1_0 : S1x1024.Transposes [1, 0] S1024x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x512_S1024x512_S16384x1024_1_1_0_0_n_n_wf : DotDims.WF S16384x512 S1024x512 S16384x1024 [1] [1] [0] [0] [] []
  dot_S16384x1024_S1024x1_S16384x1_1_0_0_1_n_n_wf : DotDims.WF S16384x1024 S1024x1 S16384x1 [1] [0] [0] [1] [] []

variable [Facts₀]

def dot_S16384x512_S1024x512_S16384x1024_1_1_0_0_n_n : DotDims S16384x512 S1024x512 S16384x1024 where
  lhsContracting := [1]
  rhsContracting := [1]
  lhsNonContracting := [0]
  rhsNonContracting := [0]
  lhsBatch := []
  rhsBatch := []
  wf := dot_S16384x512_S1024x512_S16384x1024_1_1_0_0_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.RbfSpec.lean ====
/-
  The radial-basis network as ONE function of its five argument arrays, on the extended reals, and the scalar laws
  that join the two programs' spellings of it.

  For a row `r` of `x` and a centre `h` the squared distance is taken through the expansion
  `‖x_r‖² + ‖c_h‖² − 2 ⟨x_r, c_h⟩`, clamped below at zero; the unit's response is `exp (−d / w_h)` with the width
  `w_h = 2 σ_h² + ε`; the output is the responses' sum weighted by `W`, plus the bias. One program divides the negated
  distance by the width; the other multiplies `0 − d` by the reciprocal `1 / w_h` computed beforehand. On the extended
  reals the two agree as soon as the width is not zero, and it never is: a square is nonnegative (at `±∞` it is `+∞`),
  twice it still is, and `ε` is a positive real. The final `where (v ≠ v) 0 v` is `v`: nothing differs from itself.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-! ## The three float constants the programs spell -/

/-- The pattern of `2.0` denotes the real `2`. -/
theorem two_eq : Ideal.ofBits .f32 0x40000000#32 = ((2 : ℝ) : EReal) := by
  simp [Ideal.ofBits, Ideal.ieee, -EReal.coe_mul]; norm_num

/-- The pattern of `1.0` denotes `1`. -/
theorem one_eq : Ideal.ofBits .f32 0x3F800000#32 = (1 : EReal) := by
  simp [Ideal.ofBits, Ideal.ieee, -EReal.coe_mul]; norm_num

/-- The pattern nearest `1e-6` denotes the dyadic `8796093 / 2^43`, a positive real. -/
theorem eps_eq : Ideal.ofBits .f32 0x358637BD#32 = ((8796093 / 2 ^ 43 : ℝ) : EReal) := by
  simp [Ideal.ofBits, Ideal.ieee, -EReal.coe_mul]; norm_num

/-! ## The width of a unit is never zero -/

/-- `2 σ² + ε` as the programs compute it from one entry `σ` of `sigmas`. -/
def width (s : EReal) : EReal :=
  Ideal.ofBits .f32 0x40000000#32 * (s * s) + Ideal.ofBits .f32 0x358637BD#32

/-- The width is not zero, whatever extended real `σ` is: `σ²` is `+∞` at both infinities and a nonnegative real
    otherwise, so `2 σ² + ε` is `+∞` or a positive real. -/
theorem width_ne_zero (s : EReal) : width s ≠ 0 := by
  unfold width
  rw [two_eq, eps_eq]
  induction s using EReal.rec with
  | bot =>
    rw [EReal.bot_mul_bot, EReal.coe_mul_top_of_pos (by norm_num), EReal.top_add_coe]
    exact EReal.top_ne_zero
  | top =>
    rw [EReal.top_mul_top, EReal.coe_mul_top_of_pos (by norm_num), EReal.top_add_coe]
    exact EReal.top_ne_zero
  | coe r =>
    rw [← EReal.coe_mul, ← EReal.coe_mul, ← EReal.coe_add]
    have h : (0 : ℝ) < 2 * (r * r) + 8796093 / 2 ^ 43 := by
      have h1 : (0 : ℝ) ≤ r * r := mul_self_nonneg r
      have h2 : (0 : ℝ) < 8796093 / 2 ^ 43 := by norm_num
      linarith
    exact_mod_cast h.ne'

/-- Multiplying `0 − d` by the reciprocal `1 / w` of a nonzero `w` is dividing `−d` by `w`: off zero the quotient IS the
    product with the inverse, `1 · w⁻¹ = w⁻¹` and `0 − d = −d`. -/
theorem neg_mul_recip (d w : EReal) (hw : w ≠ 0) :
    (Ideal.ofBits .f32 0x00000000#32 - d) * Ideal.div (Ideal.ofBits .f32 0x3F800000#32) w = Ideal.div (-d) w := by
  rw [Ideal.ofBits_zero_f32, one_eq, Ideal.div, Ideal.div, if_neg hw, if_neg hw, one_mul, sub_eq_add_neg, zero_add]

/-- Nothing differs from itself, so selecting on `v ≠ v` returns the other branch: `v`. Both spellings of the
    comparison (ordered and unordered) read the same on the extended reals. -/
theorem select_ne_self_one (z v : EReal) : Scalar.select (Ideal.cmp .one v v) z v = v := by
  simp [Scalar.select, Ideal.cmp]
theorem select_ne_self_une (z v : EReal) : Scalar.select (Ideal.cmp .une v v) z v = v := by
  simp [Scalar.select, Ideal.cmp]

/-! ## The network -/

/-- The squared distance of row `r` of `x` from centre `h`, by the expansion, clamped below at zero. -/
def sqDist (x : (⟨2, ![16384, 512]⟩ : Shape).Idx → EReal) (c : (⟨2, ![1024, 512]⟩ : Shape).Idx → EReal)
    (r : Fin 16384) (h : Fin 1024) : EReal :=
  max (((∑ k : Fin 512, x (ix2 r k) * x (ix2 r k)) + ∑ k : Fin 512, c (ix2 h k) * c (ix2 h k))
        - Ideal.ofBits .f32 0x40000000#32 * ∑ k : Fin 512, x (ix2 r k) * c (ix2 h k)) 0

/-- The network's output at row `i 0`: the Gaussian responses weighted by `W`, plus the bias. -/
def net (x : (⟨2, ![16384, 512]⟩ : Shape).Idx → EReal) (c : (⟨2, ![1024, 512]⟩ : Shape).Idx → EReal)
    (s : (⟨1, ![1024]⟩ : Shape).Idx → EReal) (W : (⟨2, ![1, 1024]⟩ : Shape).Idx → EReal)
    (b : (⟨1, ![1]⟩ : Shape).Idx → EReal) : (⟨2, ![16384, 1]⟩ : Shape).Idx → EReal := fun i =>
  (∑ h : Fin 1024, Ideal.exp (Ideal.div (-(sqDist x c (i 0) h)) (width (s (ix1 h)))) * W (ix2 0 h)) + b (ix1 0)

/-- The network at an index whose row is `r`. -/
theorem net_apply (x : (⟨2, ![16384, 512]⟩ : Shape).Idx → EReal) (c : (⟨2, ![1024, 512]⟩ : Shape).Idx → EReal)
    (s : (⟨1, ![1024]⟩ : Shape).Idx → EReal) (W : (⟨2, ![1, 1024]⟩ : Shape).Idx → EReal)
    (b : (⟨1, ![1]⟩ : Shape).Idx → EReal) (i : (⟨2, ![16384, 1]⟩ : Shape).Idx) (r : Fin 16384) (hr : (i 0).val = r.val) :
    net x c s W b i
      = (∑ h : Fin 1024, Ideal.exp (Ideal.div (-(sqDist x c r h)) (width (s (ix1 h)))) * W (ix2 0 h)) + b (ix1 0) := by
  have e : (i 0 : Fin 16384) = r := Fin.ext hr
  unfold net
  rw [e]

end Cert.Rbf

end
-- ==== Proof.RefNet.lean ====
/-
  The reference program's result is the network `Cert.Rbf.net` of its five arguments.

  The reference's run is read one operation at a time (the generated read-at-an-index lemmas): at output row `i 0` it is
  the sum over the 1024 centres of `exp (−d / w) · W` plus the bias, with `d` the clamped expansion of the squared
  distance and `w` the width. Each operand is met at an index composed of the broadcasts' and products' index maps;
  the equations below say which row and column that is. The closing `where (v ≠ v) 0 v` is `v`.
-/
import proofs.«159970_j23167053595193_1_alg».proof.Proof.Gen.ReferenceIdeal.Read
import proofs.«159970_j23167053595193_1_alg».proof.Proof.RbfSpec

noncomputable section

namespace Cert.ReferenceIdeal.RefNet

open Cert.ReferenceIdeal Cert.ReferenceIdeal.Gen Cert.ReferenceIdeal.Read Idealize.ShloMosaic Idealize.ShloMosaic.ValueIdx

/-! ## Where each operand is read -/

/-- `‖x_r‖²` reaches output row `i 0`, centre `h`, from row `i 0` of `x`. -/
theorem at_xsq (i : S16384x1.Idx) (h : Fin 1024) (k : Fin 512) :
    idx_main_v1 (idx_main_v2 (idx_main_v6 (lidx_main_v26 i h))) k = ix2 (n0 := 16384) (n1 := 512) (i 0) k :=
  funext fun a => Fin.ext (by match a with | ⟨0, _⟩ => rfl | ⟨1, _⟩ => rfl)

/-- `‖c_h‖²` reaches it from row `h` of `centers`. -/
theorem at_csq (i : S16384x1.Idx) (h : Fin 1024) (k : Fin 512) :
    idx_main_v4 (idx_main_v5 (idx_main_v7 (lidx_main_v26 i h))) k = ix2 (n0 := 1024) (n1 := 512) h k :=
  funext fun a => Fin.ext (by match a with | ⟨0, _⟩ => rfl | ⟨1, _⟩ => rfl)

/-- The inner product's left factor is row `i 0` of `x`, -/
theorem at_dot_x (i : S16384x1.Idx) (h : Fin 1024) (k : Fin 512) :
    lidx_main_v9 (lidx_main_v26 i h) k = ix2 (n0 := 16384) (n1 := 512) (i 0) k :=
  funext fun a => Fin.ext (by match a with | ⟨0, _⟩ => rfl | ⟨1, _⟩ => rfl)

/-- and its right factor row `h` of `centers`. -/
theorem at_dot_c (i : S16384x1.Idx) (h : Fin 1024) (k : Fin 512) :
    ridx_main_v9 (lidx_main_v26 i h) k = ix2 (n0 := 1024) (n1 := 512) h k :=
  funext fun a => Fin.ext (by match a with | ⟨0, _⟩ => rfl | ⟨1, _⟩ => rfl)

/-- The width is taken from entry `h` of `sigmas`. -/
theorem at_sigma (i : S16384x1.Idx) (h : Fin 1024) :
    idx_main_v21 (idx_main_v22 (lidx_main_v26 i h)) = ix1 (n := 1024) h :=
  funext fun a => Fin.ext (by match a with | ⟨0, _⟩ => rfl)

/-- The weight is entry `h` of the one row of `W` (the output's second axis has one coordinate). -/
theorem at_weight (i : S16384x1.Idx) (h : Fin 1024) :
    idx_main_v25 (ridx_main_v26 i h) = ix2 (n0 := 1) (n1 := 1024) 0 h :=
  funext fun a => Fin.ext (by
    match a with
    | ⟨0, _⟩ => show (i 1).val = 0; have h1 : (i 1).val < 1 := (i 1).isLt; omega
    | ⟨1, _⟩ => rfl)

/-- The bias is the one entry of `b`. -/
theorem at_bias (i : S16384x1.Idx) : idx_main_v27 (idx_main_v28 i) = ix1 (n := 1) 0 :=
  funext fun a => Fin.ext (by match a with | ⟨0, _⟩ => rfl)

/-! ## The reference's result -/

/-- The reference's last stage is the network, index by index. -/
theorem result_eq (x0 : (⟨S16384x512, .f32⟩ : BufTy).Contents (Elt Ideal)) (x1 : (⟨S1024x512, .f32⟩ : BufTy).Contents (Elt Ideal))
    (x2 : (⟨S1024, .f32⟩ : BufTy).Contents (Elt Ideal)) (x3 : (⟨S1x1024, .f32⟩ : BufTy).Contents (Elt Ideal))
    (x4 : (⟨S1, .f32⟩ : BufTy).Contents (Elt Ideal)) :
    val_main_v32 (F := Ideal) x0 x1 x2 x3 x4 = Cert.Rbf.net x0 x1 x2 x3 x4 := by
  funext i
  simp only [val_main_v32_apply, val_main_v30_apply, val_main_v31_apply, val_main_cst_5_apply, val_main_v29_apply, val_main_v26_apply, val_main_v28_apply, val_main_v27_apply, val_main_v25_apply, val_main_v24_apply, val_main_v23_apply, val_main_v22_apply, val_main_v21_apply, val_main_v20_apply, val_main_v19_apply, val_main_cst_4_apply, val_main_v18_apply, val_main_v17_apply, val_main_cst_3_apply, val_main_v16_apply, val_main_v15_apply, val_main_v14_apply, val_main_v13_apply, val_main_cst_2_apply, val_main_v12_apply, val_main_v11_apply, val_main_v10_apply, val_main_cst_1_apply, val_main_v9_apply, val_main_v8_apply, val_main_v7_apply, val_main_v6_apply, val_main_v5_apply, val_main_v4_apply, val_main_cst_0_apply, val_main_v3_apply, val_main_v2_apply, val_main_v1_apply, val_main_cst_apply, val_main_v0_apply]
  rw [Ideal.cmpf_def, Cert.Rbf.select_ne_self_une]
  simp only [at_xsq, at_csq, at_dot_x, at_dot_c, at_sigma, at_weight, at_bias, Ideal.addf_def, Ideal.subf_def,
    Ideal.mulf_def, Ideal.maximumf_def, Ideal.hostNegf_def, Ideal.negf_def, Ideal.hostDivf_def,
    Ideal.hostUnary_exp_def, Ideal.ofBits_def, Ideal.ofBits_zero_f32, zero_add]
  rfl

end Cert.ReferenceIdeal.RefNet

end
-- ==== Proof.BodyOps.lean ====
/-
  The body's non-pointwise operations read at an index, at the extended reals, over the body's literal shapes:
  the column forms of a shape cast and of a broadcast that `keepdims` sums meet, a row sum as a sum over the
  row's 512 or 1024 entries, and the matrix product of a row block with the transposed centres as the sum over the
  512 features.
-/
import proofs.«159970_j23167053595193_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyOps

open Cert.KernelIdeal Cert.KernelIdeal.Gen Idealize.ShloMosaic Idealize.ShloMosaic.ValueIdx

/-! ## Columns -/

/-- A vector of 512 entries viewed as a column reads, at row `p`, entry `p`. -/
theorem col_cast_apply (v : FVec Ideal S512 .f32) (p : Fin 512) (q : Fin 1) :
    shapeCast S512x1 v shapeCasts_S512_S512x1 (ix2 p q) = v (ix1 p) := by
  refine shapeCast_apply v shapeCasts_S512_S512x1 (ix2 p q) (ix1 p) ?_
  rw [Shape.rowMajor_val_one, Shape.rowMajor_val_two]
  show p.val = p.val * 1 + q.val
  have := q.isLt
  omega

/-- A column broadcast along 1024 lanes reads, at `(p, h)`, the column's row `p`. -/
theorem col_bcast_apply (v : FVec Ideal S512x1 .f32) (p : Fin 512) (h : Fin 1024) :
    broadcastTo S512x1024 v broadcasts_S512x1_S512x1024 (ix2 p h) = v (ix2 p (0 : Fin 1)) := by
  refine broadcastTo_apply v broadcasts_S512x1_S512x1024 (ix2 p h) (ix2 p (0 : Fin 1)) fun ax => ?_
  match ax with
  | ⟨0, _⟩ => show p.val = if (512 : Nat) = 1 then 0 else p.val; rw [if_neg (by decide)]
  | ⟨1, _⟩ => show 0 = if (1 : Nat) = 1 then 0 else h.val; rw [if_pos rfl]

/-! ## Row sums -/

/-- The sum along the 512 features of a [512, 512] block, at row `p`. -/
theorem rowsum512_apply (v : FVec Ideal S512x512 .f32) (hφ : FKind.Formats .f32)
    (hacc : (0x00000000#32 : BitVec 32) = 0x00000000#32) (p : Fin 512) :
    multiReduction .add [1] S512 v 0x00000000#32 reduces_S512x512_S512 hφ hacc (ix1 p)
      = ∑ k : Fin 512, v (ix2 p k) := by
  refine (Ideal.multiReduction_add_single v 0x00000000#32 reduces_S512x512_S512 hφ hacc (ix1 p)).trans ?_
  refine Finset.sum_congr rfl fun k _ => ?_
  exact congrArg v (funext fun a => Fin.ext (by match a with | ⟨0, _⟩ => rfl | ⟨1, _⟩ => rfl))

/-- The sum along the 1024 centres of a [512, 1024] block, at row `p`. -/
theorem rowsum1024_apply (v : FVec Ideal S512x1024 .f32) (hφ : FKind.Formats .f32)
    (hacc : (0x00000000#32 : BitVec 32) = 0x00000000#32) (p : Fin 512) :
    multiReduction .add [1] S512 v 0x00000000#32 reduces_S512x1024_S512 hφ hacc (ix1 p)
      = ∑ h : Fin 1024, v (ix2 p h) := by
  refine (Ideal.multiReduction_add_single v 0x00000000#32 reduces_S512x1024_S512 hφ hacc (ix1 p)).trans ?_
  refine Finset.sum_congr rfl fun k _ => ?_
  exact congrArg v (funext fun a => Fin.ext (by match a with | ⟨0, _⟩ => rfl | ⟨1, _⟩ => rfl))

/-! ## The product of the row block with the transposed centres -/

theorem lhs_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhs_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhs_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhs_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The product into a zero accumulator, at `(p, h)`: the sum over the 512 features of the left row `p` times the right
    column `h`. -/
theorem product_apply (l : FVec Ideal S512x512 .bf16) (r : FVec Ideal S512x1024 .bf16) (p : Fin 512) (h : Fin 1024) :
    matmul dot_S512x512_S512x1024_S512x1024_1_0_0_1_n_n none l r (constant S512x1024 .f32 0x00000000#32) (ix2 p h)
      = ∑ k : Fin 512, l (ix2 p k) * r (ix2 k h) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 p h) ((ValueIdx.contrEquiv1 dot_S512x512_S512x1024_S512x1024_1_0_0_1_n_n 512 rfl rfl).symm k) = ix2 p k := funext fun a => Fin.ext (by
    match a with
    | ⟨0, _⟩ => exact lhs_0 _ _
    | ⟨1, _⟩ => exact (lhs_1 _ _).trans hk)
  have er : dot_S512x512_S512x1024_S512x1024_1_0_0_1_n_n.rhsIdx (ix2 p h) ((ValueIdx.contrEquiv1 dot_S512x512_S512x1024_S512x1024_1_0_0_1_n_n 512 rfl rfl).symm k) = ix2 k h := funext fun a => Fin.ext (by
    match a with
    | ⟨0, _⟩ => exact (rhs_0 _ _).trans hk
    | ⟨1, _⟩ => exact rhs_1 _ _)
  rw [el, er]

/-- The centres transposed read, at `(k, h)`, centre `h`'s feature `k`. -/
theorem centresT_apply (c : FVec Ideal S1024x512 .bf16) (k : Fin 512) (h : Fin 1024) :
    transpose S512x1024 [1, 0] c transposes_S1024x512_p1_0_S512x1024 (ix2 k h) = c (ix2 h k) :=
  transpose_ix2_apply c transposes_S1024x512_p1_0_S512x1024 k h

/-- With the right factor the transposed centres: the inner product of row `p` of the block with centre `h`. -/
theorem gram_apply (l : FVec Ideal S512x512 .bf16) (c : FVec Ideal S1024x512 .bf16) (p : Fin 512) (h : Fin 1024) :
    matmul dot_S512x512_S512x1024_S512x1024_1_0_0_1_n_n none l (transpose S512x1024 [1, 0] c transposes_S1024x512_p1_0_S512x1024)
        (constant S512x1024 .f32 0x00000000#32) (ix2 p h)
      = ∑ k : Fin 512, l (ix2 p k) * c (ix2 h k) := by
  rw [product_apply]
  refine Finset.sum_congr rfl fun k _ => ?_
  exact congrArg (l (ix2 p k) * ·) (transpose_ix2_apply c transposes_S1024x512_p1_0_S512x1024 k h)

end Cert.KernelIdeal.BodyOps

end
-- ==== Proof.BodyValue.lean ====
/-
  What one grid point stores, read at a row: for the point's 512 rows of `x` (the block `x0`), all the centres
  (`x1`), the centres' squared norms `x2`, the reciprocal widths `x3`, the weights `x4` and the bias `x5`, row `p` of the stored
  column is the sum over the 1024 centres of `exp ((0 − d) · x3_h) · x4_h`, plus the bias, with
  `d = max (‖row p of x0‖² + x2_h − 2 ⟨row p of x0, row h of x1⟩) 0`. The body's closing select on `v ≠ v` keeps `v`.
-/
import proofs.«159970_j23167053595193_1_alg».proof.Proof.BodyOps
import proofs.«159970_j23167053595193_1_alg».proof.Proof.RbfSpec

noncomputable section

namespace Cert.KernelIdeal.BodyValue

open Cert.KernelIdeal Cert.KernelIdeal.Gen Cert.KernelIdeal.BodyOps Idealize.ShloMosaic Idealize.ShloMosaic.ValueIdx

/-- The exponential of a vector at an index. -/
theorem exp_apply {s : Shape} (v : FVec Ideal s .f32) (i : s.Idx) : exp v i = Ideal.exp (v i) := rfl

/-- Row `p` of what the body stores, from the blocks it loads. -/
theorem stored_apply (x0 : Vec Ideal S512x512 .f32) (x1 : Vec Ideal S1024x512 .f32) (x2 x3 x4 : Vec Ideal S1x1024 .f32)
    (x5 : Vec Ideal S1x1 .f32) (p : Fin 512) (q : Fin 1) :
    k0_pay1 (F := Ideal) x0 x1 x2 x3 x4 x5 (ix2 p q)
      = (∑ h : Fin 1024,
          Ideal.exp ((Ideal.ofBits .f32 0x00000000#32
              - max (((∑ k : Fin 512, x0 (ix2 p k) * x0 (ix2 p k)) + x2 (ix2 (0 : Fin 1) h))
                      - Ideal.ofBits .f32 0x40000000#32 * ∑ k : Fin 512, x0 (ix2 p k) * x1 (ix2 h k))
                    (Ideal.ofBits .f32 0x00000000#32))
            * x3 (ix2 (0 : Fin 1) h)) * x4 (ix2 (0 : Fin 1) h))
        + x5 (ix2 (0 : Fin 1) q) := by
  unfold k0_pay1
  simp only [select_apply, cmpf_apply, addf_apply, broadcast_apply, col_cast_apply, broadcastTo_1b_ab_apply, shapeCast_self,
    Ideal.cmpf_def, Cert.Rbf.select_ne_self_one]
  rw [rowsum1024_apply]
  simp only [mulf_apply, exp_apply, subf_apply, maximumf_apply, addf_apply, broadcast_apply, col_bcast_apply, col_cast_apply,
    broadcastTo_1b_ab_apply, product_apply, truncf_apply]
  rw [rowsum512_apply]
  simp only [mulf_apply]
  refine congrArg (· + x5 (ix2 (0 : Fin 1) q)) (Finset.sum_congr rfl fun h _ => ?_)
  have e : (∑ k : Fin 512, x0 (ix2 p k) * transpose S512x1024 [1, 0] (truncf (F := Ideal) .bf16 x1 bitsLt_bf16_f32)
        transposes_S1024x512_p1_0_S512x1024 (ix2 k h)) = ∑ k : Fin 512, x0 (ix2 p k) * x1 (ix2 h k) :=
    Finset.sum_congr rfl fun k _ => congrArg (x0 (ix2 p k) * ·) (centresT_apply _ k h)
  rw [e]
  rfl

end Cert.KernelIdeal.BodyValue

end
-- ==== Proof.Prepared.lean ====
/-
  The three arrays the program prepares from its arguments before the kernel runs, read at an index: the centres'
  squared norms `∑_k c_hk²` (a row of 1024), the reciprocal widths `1 / (2 σ_h² + ε)` (a row of 1024), and the bias as a
  [1, 1] array. Each is the host operations' term of the arguments as launched; the sum starts from the zero constant,
  and a row of 1024 viewed as [1, 1024] reads at `(0, h)` its entry `h`.
-/
import proofs.«159970_j23167053595193_1_alg».proof.Proof.Gen.KernelIdeal.Frame
import proofs.«159970_j23167053595193_1_alg».proof.Proof.RbfSpec
import Idealize.ShloMosaic.Lib.StableHlo.Run
import Idealize.ShloMosaic.Lib.ValueLayout
import Idealize.ShloMosaic.Lib.ValueIdx
import Idealize.ShloMosaic.PureOps.Ideal.Laws

noncomputable section

namespace Cert.KernelIdeal.Prepared

open Cert.KernelIdeal Cert.KernelIdeal.Gen Idealize.ShloMosaic Idealize.ShloMosaic.ValueIdx Idealize.ShloMosaic.TcCoe
  Idealize.SL.Sem Idealize.ShloMosaic.StableHlo

variable (m : (ℓ : Loc nD τ sig) → Buf (Elt Ideal) ℓ)

/-- The arguments as launched, each at its literal type. -/
abbrev centres (c : Dev nD) : S1024x512.Idx → EReal := m ((c : Thread nD τ).loc main_arg1)
abbrev sigmas (c : Dev nD) : S1024.Idx → EReal := m ((c : Thread nD τ).loc main_arg2)
abbrev bias (c : Dev nD) : S1.Idx → EReal := m ((c : Thread nD τ).loc main_arg4)
/-- The three arrays the program prepares before the kernel, as the kernel finds them. -/
def norms (c : Dev nD) : S1x1024.Idx → EReal := V m c main_v2
def recips (c : Dev nD) : S1x1024.Idx → EReal := V m c main_v10
def bias2 (c : Dev nD) : S1x1.Idx → EReal := V m c main_v11

/-- A scalar constant broadcast to 1024 entries reads the constant everywhere. -/
theorem splat_apply (b : BitVec 32) (i : S1024.Idx) :
    broadcastInDim S1024 ![] bcast_S_S1024 (constant (F := Ideal) S_ .f32 b) i = Ideal.ofBits .f32 b :=
  broadcastInDim_apply _ bcast_S_S1024 (constant (F := Ideal) S_ .f32 b) i ix0 (fun a => a.elim0)

/-- The host's sum along the 512 features of a [1024, 512] array from a scalar start, at centre `h`. -/
theorem hostRowSum_apply (y : FVec Ideal S1024x512 .f32) (z : FVec Ideal S_ .f32) (h : Fin 1024) :
    Host.reduceAdd y z reducesTo_S1024x512_S1024_d1 h_S_ (ix1 h) = z (Shape.Idx.first h_S_) + ∑ k : Fin 512, y (ix2 h k) := by
  simp only [Host.reduceAdd, Ideal.hostReduceAdd_def]
  rw [Ideal.hostReduceAdd_single reducesTo_S1024x512_S1024_d1 (by decide)]
  refine congrArg (_ + ·) (Finset.sum_congr rfl fun k _ => ?_)
  exact congrArg y (funext fun a => Fin.ext (by match a with | ⟨0, _⟩ => rfl | ⟨1, _⟩ => rfl))

/-- The centres' squared norms, as the kernel finds them. -/
theorem norms_eq (c : Dev nD) : norms m c
    = shapeCast S1x1024 (Host.reduceAdd (F := Ideal) (mulf (F := Ideal) (φ := .f32) (centres m c) (centres m c))
        (constant (F := Ideal) S_ .f32 0x00000000#32) reducesTo_S1024x512_S1024_d1 h_S_) shapeCasts_S1024_S1x1024 := by
  show V m c main_v2 = _
  dsimp only [V, hostOps0]; after_results; rfl

theorem norms_apply (c : Dev nD) (h : Fin 1024) :
    norms m c (ix2 (0 : Fin 1) h) = ∑ k : Fin 512, centres m c (ix2 h k) * centres m c (ix2 h k) := by
  rw [norms_eq]
  refine (shapeCast_a_1a_apply _ shapeCasts_S1024_S1x1024 0 h).trans ?_
  rw [hostRowSum_apply]
  show Ideal.ofBits .f32 0x00000000#32 + _ = _
  rw [Ideal.ofBits_zero_f32, zero_add]
  rfl

/-- The reciprocal widths, as the kernel finds them. -/
theorem recips_eq (c : Dev nD) : recips m c
    = shapeCast S1x1024 (Host.divf (F := Ideal) (φ := .f32)
        (broadcastInDim S1024 ![] bcast_S_S1024 (constant (F := Ideal) S_ .f32 0x3F800000#32))
        (addf (F := Ideal) (φ := .f32)
          (mulf (F := Ideal) (φ := .f32) (broadcastInDim S1024 ![] bcast_S_S1024 (constant (F := Ideal) S_ .f32 0x40000000#32))
            (mulf (F := Ideal) (φ := .f32) (sigmas m c) (sigmas m c)))
          (broadcastInDim S1024 ![] bcast_S_S1024 (constant (F := Ideal) S_ .f32 0x358637BD#32))))
        shapeCasts_S1024_S1x1024 := by
  show V m c main_v10 = _
  dsimp only [V, hostOps0]; after_results; rfl

theorem recips_apply (c : Dev nD) (h : Fin 1024) :
    recips m c (ix2 (0 : Fin 1) h)
      = Ideal.div (Ideal.ofBits .f32 0x3F800000#32) (Cert.Rbf.width (sigmas m c (ix1 h))) := by
  rw [recips_eq]
  refine (shapeCast_a_1a_apply _ shapeCasts_S1024_S1x1024 0 h).trans ?_
  show Ideal.div _ (_ * (_ * _) + _) = _
  rw [splat_apply, splat_apply, splat_apply]
  rfl

/-- The bias as a [1, 1] array. -/
theorem bias2_eq (c : Dev nD) : bias2 m c = shapeCast S1x1 (bias m c) shapeCasts_S1_S1x1 := by
  show V m c main_v11 = _
  dsimp only [V, hostOps0]; after_results; rfl

theorem bias2_apply (c : Dev nD) (q : Fin 1) : bias2 m c (ix2 (0 : Fin 1) q) = bias m c (ix1 (0 : Fin 1)) := by
  rw [bias2_eq]
  refine (shapeCast_a_1a_apply _ shapeCasts_S1_S1x1 0 q).trans ?_
  exact congrArg (bias m c) (funext fun a => Fin.ext (by match a with | ⟨0, _⟩ => (show q.val = 0; omega)))

end Cert.KernelIdeal.Prepared
end
-- ==== Proof.Blocks.lean ====
/-
  From what each grid point writes back to the whole result array, and the kernel's run with its result named.

  Grid point `t` stages rows `512 t … 512 t + 511` of `x` and, whole, the centres, their squared norms, the reciprocal
  widths, the weights and the bias, and writes back rows `512 t … 512 t + 511` of the result. Row `p` of what it stores is the
  network at row `512 t + p`: the stored column read at `p` (the body's value), each block read where it sits in its
  array, the prepared arrays read at their entries, and `(0 − d) · (1 / w) = −d / w` for the nonzero width. The 32 blocks
  tile the 16384 rows, so the result array ends at the network of the arguments.
-/
import proofs.«159970_j23167053595193_1_alg».proof.Proof.Gen.KernelIdeal.Value
import proofs.«159970_j23167053595193_1_alg».proof.Proof.BodyValue
import proofs.«159970_j23167053595193_1_alg».proof.Proof.Prepared
import proofs.«159970_j23167053595193_1_alg».proof.Proof.RbfSpec
import Idealize.ShloMosaic.Lib.Pipeline.Value

noncomputable section

namespace Cert.KernelIdeal.Blocks

open Cert.KernelIdeal Cert.KernelIdeal.Gen Cert.KernelIdeal.Value Cert.KernelIdeal.Prepared Cert.KernelIdeal.BodyValue
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- `x` and `W` as launched, at their literal types. -/
abbrev rows (c : Dev nD) : S16384x512.Idx → EReal := m ((c : Thread nD τ).loc main_arg0)
abbrev weights (c : Dev nD) : S1x1024.Idx → EReal := m ((c : Thread nD τ).loc main_arg3)

/-- The network of the arguments as launched: what the result array ends holding. -/
abbrev result (c : Dev nD) : S16384x1.Idx → EReal :=
  Cert.Rbf.net (rows m c) (centres m c) (sigmas m c) (weights m c) (bias m c)

theorem hz : (![0, 0] : Fin 2 → Nat) = fun _ => 0 := funext fun a => by fin_cases a <;> rfl

/-- The printed index maps over the 32 grid points: `x`'s and the result's block index is the point, every other
    window sits at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of grid point `t`'s block, as a row of the array. -/
def rowOf (t : Fin cfg0.N) (p : Fin 512) : Fin 16384 :=
  ⟨t.val * 512 + p.val, by have h1 : t.val < 32 := lt_of_lt_of_eq t.isLt N_0
                           have h2 := p.isLt; omega⟩

/-! ## Each staged block, read where it sits in its array -/

theorem rows_blk (c : Dev nD) (t : Fin cfg0.N) (p k : Fin 512) :
    (iblk m c 0 t : Vec Ideal S512x512 .f32) (ix2 p k) = rows m c (ix2 (rowOf t p) k) := by
  obtain ⟨e0, e1, -⟩ := idx_facts t
  show V m c main_arg0 (((cfg0.win 0).blk t).view.emb (ix2 p k)) = rows m c (ix2 (rowOf t p) k)
  rw [V_main_arg0]
  refine congrArg (rows m c) (funext fun a => Fin.ext ?_)
  match a with
  | ⟨0, _⟩ => show win0_0.index t (0 : Fin 2) * 512 + 1 * p.val = t.val * 512 + p.val; rw [e0]; omega
  | ⟨1, _⟩ => show win0_0.index t (1 : Fin 2) * 512 + 1 * k.val = k.val; rw [e1]; omega

theorem centres_blk (c : Dev nD) (t : Fin cfg0.N) (h : Fin 1024) (k : Fin 512) :
    (iblk m c 1 t : Vec Ideal S1024x512 .f32) (ix2 h k) = centres m c (ix2 h k) := by
  obtain ⟨-, -, e0, e1, -⟩ := idx_facts t
  show V m c main_arg1 (((cfg0.win 1).blk t).view.emb (ix2 h k)) = centres m c (ix2 h k)
  rw [V_main_arg1]
  refine congrArg (centres m c) (funext fun a => Fin.ext ?_)
  match a with
  | ⟨0, _⟩ => show win0_1.index t (0 : Fin 2) * 1024 + 1 * h.val = h.val; rw [e0]; omega
  | ⟨1, _⟩ => show win0_1.index t (1 : Fin 2) * 512 + 1 * k.val = k.val; rw [e1]; omega

theorem norms_blk (c : Dev nD) (t : Fin cfg0.N) (u : Fin 1) (h : Fin 1024) :
    (iblk m c 2 t : Vec Ideal S1x1024 .f32) (ix2 u h) = norms m c (ix2 u h) := by
  obtain ⟨-, -, -, -, e0, e1, -⟩ := idx_facts t
  show V m c main_v2 (((cfg0.win 2).blk t).view.emb (ix2 u h)) = norms m c (ix2 u h)
  refine congrArg (norms m c) (funext fun a => Fin.ext ?_)
  match a with
  | ⟨0, _⟩ => show win0_2.index t (0 : Fin 2) * 1 + 1 * u.val = u.val; rw [e0]; omega
  | ⟨1, _⟩ => show win0_2.index t (1 : Fin 2) * 1024 + 1 * h.val = h.val; rw [e1]; omega

theorem recips_blk (c : Dev nD) (t : Fin cfg0.N) (u : Fin 1) (h : Fin 1024) :
    (iblk m c 3 t : Vec Ideal S1x1024 .f32) (ix2 u h) = recips m c (ix2 u h) := by
  obtain ⟨-, -, -, -, -, -, e0, e1, -⟩ := idx_facts t
  show V m c main_v10 (((cfg0.win 3).blk t).view.emb (ix2 u h)) = recips m c (ix2 u h)
  refine congrArg (recips m c) (funext fun a => Fin.ext ?_)
  match a with
  | ⟨0, _⟩ => show win0_3.index t (0 : Fin 2) * 1 + 1 * u.val = u.val; rw [e0]; omega
  | ⟨1, _⟩ => show win0_3.index t (1 : Fin 2) * 1024 + 1 * h.val = h.val; rw [e1]; omega

theorem weights_blk (c : Dev nD) (t : Fin cfg0.N) (u : Fin 1) (h : Fin 1024) :
    (iblk m c 4 t : Vec Ideal S1x1024 .f32) (ix2 u h) = weights m c (ix2 u h) := by
  obtain ⟨-, -, -, -, -, -, -, -, e0, e1, -⟩ := idx_facts t
  show V m c main_arg3 (((cfg0.win 4).blk t).view.emb (ix2 u h)) = weights m c (ix2 u h)
  rw [V_main_arg3]
  refine congrArg (weights m c) (funext fun a => Fin.ext ?_)
  match a with
  | ⟨0, _⟩ => show win0_4.index t (0 : Fin 2) * 1 + 1 * u.val = u.val; rw [e0]; omega
  | ⟨1, _⟩ => show win0_4.index t (1 : Fin 2) * 1024 + 1 * h.val = h.val; rw [e1]; omega

theorem bias_blk (c : Dev nD) (t : Fin cfg0.N) (u q : Fin 1) :
    (iblk m c 5 t : Vec Ideal S1x1 .f32) (ix2 u q) = bias2 m c (ix2 u q) := by
  obtain ⟨-, -, -, -, -, -, -, -, -, -, e0, e1, -⟩ := idx_facts t
  show V m c main_v11 (((cfg0.win 5).blk t).view.emb (ix2 u q)) = bias2 m c (ix2 u q)
  refine congrArg (bias2 m c) (funext fun a => Fin.ext ?_)
  match a with
  | ⟨0, _⟩ => show win0_5.index t (0 : Fin 2) * 1 + 1 * u.val = u.val; rw [e0]; omega
  | ⟨1, _⟩ => show win0_5.index t (1 : Fin 2) * 1 + 1 * q.val = q.val; rw [e1]; omega

/-- Row `p` of the result's block at point `t` is row `512 t + p` of the array. -/
theorem result_row (t : Fin cfg0.N) (p : Fin 512) (q : Fin 1) :
    ((((cfg0.win 6).blk t).view.emb (ix2 p q)) 0 : Fin 16384) = rowOf t p := by
  obtain ⟨-, -, -, -, -, -, -, -, -, -, -, -, e0, -⟩ := idx_facts t
  apply Fin.ext
  show win0_6.index t (0 : Fin 2) * 512 + 1 * p.val = t.val * 512 + p.val
  rw [e0]; omega

/-! ## What a point writes back -/

/-- WHAT POINT `t` WRITES BACK is block `t` of the network of the arguments. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S512x512) hz, View.ld_unit_zero (S := S1024x512) hz, View.ld_unit_zero (S := S1x1024) hz,
    View.ld_unit_zero (S := S1x1) hz]
  funext j
  obtain ⟨p, q, rfl⟩ : ∃ (p : Fin 512) (q : Fin 1), j = ix2 p q := ⟨j 0, j 1, eq_ix2 (n0 := 512) (n1 := 1) j⟩
  show k0_pay1 (F := Ideal) (iblk m c 0 t) (iblk m c 1 t) (iblk m c 2 t) (iblk m c 3 t) (iblk m c 4 t) (iblk m c 5 t) (ix2 p q)
      = result m c (((cfg0.win 6).blk t).view.emb (ix2 p q))
  refine (stored_apply (iblk m c 0 t) (iblk m c 1 t) (iblk m c 2 t) (iblk m c 3 t) (iblk m c 4 t) (iblk m c 5 t) p q).trans ?_
  refine Eq.trans ?_ (Cert.Rbf.net_apply (rows m c) (centres m c) (sigmas m c) (weights m c) (bias m c) _ (rowOf t p) ?_).symm
  · simp only [rows_blk m c t, centres_blk m c t, norms_blk m c t, recips_blk m c t, weights_blk m c t, bias_blk m c t]
    simp only [norms_apply, recips_apply, bias2_apply, Cert.Rbf.neg_mul_recip _ _ (Cert.Rbf.width_ne_zero _)]
    simp only [Ideal.ofBits_zero_f32]
    rfl
  · obtain ⟨-, -, -, -, -, -, -, -, -, -, -, -, e0, -⟩ := idx_facts t
    show win0_6.index t (0 : Fin 2) * 512 + 1 * p.val = t.val * 512 + p.val
    rw [e0]; omega

/-! ## The 32 blocks tile the rows -/

/-- An index of the result array is in point `t`'s block iff each coordinate is in the block's range on its axis. -/
theorem mem_blk (t : Fin cfg0.N) (i : S16384x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v12).slice (win0_6.rect t)).set ↔ _
  rw [View.set_slice_whole, Rect.mem_set_unit]
  exact Iff.rfl

/-- Row `r` is written back by point `r / 512`. -/
theorem covered (i : S16384x1.Idx) :
    ∃ t : Fin cfg0.N, (cfg0.win 6).flush t = true ∧ i ∈ ((cfg0.win 6).blk t).view.set := by
  have hi0 : (i 0).val < 16384 := (i 0).isLt
  have hi1 : (i 1).val < 1 := (i 1).isLt
  have hN : cfg0.N = 32 := N_0
  have ht : (i 0).val / 512 < cfg0.N := by rw [hN]; omega
  obtain ⟨-, -, -, -, -, -, -, -, -, -, -, -, e0, e1⟩ := idx_facts ⟨(i 0).val / 512, ht⟩
  refine ⟨⟨(i 0).val / 512, ht⟩, flush0_6 _, ?_⟩
  rw [mem_blk]
  intro a
  match a with
  | ⟨0, _⟩ =>
    show win0_6.index ⟨(i 0).val / 512, ht⟩ (0 : Fin 2) * 512 ≤ (i 0).val
      ∧ (i 0).val < win0_6.index ⟨(i 0).val / 512, ht⟩ (0 : Fin 2) * 512 + 512
    rw [e0]
    show (i 0).val / 512 * 512 ≤ (i 0).val ∧ (i 0).val < (i 0).val / 512 * 512 + 512
    omega
  | ⟨1, _⟩ =>
    show win0_6.index ⟨(i 0).val / 512, ht⟩ (1 : Fin 2) * 1 ≤ (i 1).val
      ∧ (i 1).val < win0_6.index ⟨(i 0).val / 512, ht⟩ (1 : Fin 2) * 1 + 1
    rw [e1]
    omega

/-- THE RESULT ARRAY after the run is the network of the arguments. -/
theorem final (c : Dev nD) : (dats m 0 c).arrAt 6 cfg0.N = result m c :=
  (dats m 0 c).arrAt_eq_of_cover 6 (result m c) (fun t _ => flushed_eq m c t) covered

/-! ## The run, read -/

/-- The kernel's run: the result array at the network of the arguments as launched, the arguments unchanged. -/
theorem run : θ_run defs (onTc (τ := τ) (main (F := Ideal))) ⟨m, fun _ => 0, ρ⟩ fun r => ∀ c : Dev nD,
      r.2.mem ((c : Thread nD τ).loc main_v12) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Blocks

end
-- ==== Proof.lean ====
/-
  A radial-basis network, `out_r = ∑_h exp (−d_rh / (2 σ_h² + ε)) · W_h + b` with
  `d_rh = max (‖x_r‖² + ‖c_h‖² − 2 ⟨x_r, c_h⟩) 0`, computed by a kernel over 32 blocks of 512 rows against the plain
  array program, equal on the extended reals.

  The two programs spell the same sums (a row sum, a sum started from the zero constant, a matrix product into a zero
  accumulator and a contraction are one finite sum each; a change of float format is the identity). They differ in
  one place: the kernel's program computes the reciprocal `1 / (2 σ_h² + ε)` once, before the kernel, and multiplies
  `0 − d` by it, where the reference divides `−d` by the width. Off zero a quotient is the product with the inverse, and
  the width is never zero (`Cert.Rbf.width_ne_zero`: a square is nonnegative, `+∞` at the infinities, and `ε > 0`), so no
  finiteness of the inputs is used. Both end with `where (v ≠ v) 0 v`, which is `v`.

  The modules: `RbfSpec` (the network as one function of the arguments, and the scalar laws), `RefNet` (the reference's
  result is that function), `BodyOps` and `BodyValue` (what one grid point stores, row by row), `Prepared` (the norms, the
  reciprocal widths and the bias as the kernel finds them), `Blocks` (a point writes back its block of the network; the
  blocks tile the rows; the run). The frames of the two kernel programs and the reference's run are the generated ones.
-/
import proofs.«159970_j23167053595193_1_alg».proof.Defs
import proofs.«159970_j23167053595193_1_alg».proof.Proof.Gen.Kernel
import proofs.«159970_j23167053595193_1_alg».proof.Proof.Gen.Kernel.Skeleton
import proofs.«159970_j23167053595193_1_alg».proof.Proof.Gen.Kernel.Launch
import proofs.«159970_j23167053595193_1_alg».proof.Proof.Gen.Kernel.Points
import proofs.«159970_j23167053595193_1_alg».proof.Proof.Gen.Kernel.Frame
import proofs.«159970_j23167053595193_1_alg».proof.Proof.Gen.KernelIdeal
import proofs.«159970_j23167053595193_1_alg».proof.Proof.Gen.KernelIdeal.Skeleton
import proofs.«159970_j23167053595193_1_alg».proof.Proof.Gen.KernelIdeal.Launch
import proofs.«159970_j23167053595193_1_alg».proof.Proof.Gen.KernelIdeal.Points
import proofs.«159970_j23167053595193_1_alg».proof.Proof.Gen.KernelIdeal.Frame
import proofs.«159970_j23167053595193_1_alg».proof.Proof.Gen.ReferenceIdeal
import proofs.«159970_j23167053595193_1_alg».proof.Proof.Gen.Pre_finite_inputs
import proofs.«159970_j23167053595193_1_alg».proof.Proof.Gen.KernelIdeal.Value
import proofs.«159970_j23167053595193_1_alg».proof.Proof.Gen.ReferenceIdeal.Run
import proofs.«159970_j23167053595193_1_alg».proof.Proof.Gen.ReferenceIdeal.Read
import proofs.«159970_j23167053595193_1_alg».proof.Proof.RefNet
import proofs.«159970_j23167053595193_1_alg».proof.Proof.Blocks
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel :=
  fun m ρ _ => Cert.Kernel.Gen.frame m ρ

/-- So does its reading on the extended reals. -/
theorem frame_kernelIdeal : Cert.frame_KernelIdeal :=
  fun m ρ _ => Cert.KernelIdeal.Gen.frame m ρ

/-- The reference runs and keeps its arguments: its run with the result dropped. -/
theorem frame_reference : Cert.frame_ReferenceIdeal :=
  fun m ρ _ => (θ_run Cert.ReferenceIdeal.defs _ _).mono (fun _ h c => (h c).2)
    (Cert.ReferenceIdeal.Value.run (F := Ideal) m ρ)

/-- From memories agreeing on the five arguments both programs end with the network of those arguments. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefNet.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
